-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S16384x1024 : Shape := ⟨2, ![16384, 1024]⟩
abbrev S32768x1024 : Shape := ⟨2, ![32768, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S2048x1024 .f32) (main_arg1 : FVec F S16384x1024 .f32) (main_arg2 : FVec F S32768x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  main_v13
-- ==== Kernel.lean ====
abbrev S2048x1024 : Shape := ⟨2, ![2048, 1024]⟩
abbrev S16384x1024 : Shape := ⟨2, ![16384, 1024]⟩
abbrev S32768x1024 : Shape := ⟨2, ![32768, 1024]⟩
abbrev S2048x8x1024 : Shape := ⟨3, ![2048, 8, 1024]⟩
abbrev S2048x16x1024 : Shape := ⟨3, ![2048, 16, 1024]⟩
abbrev S1x1 : Shape := ⟨2, ![1, 1]⟩
abbrev S64x1024 : Shape := ⟨2, ![64, 1024]⟩
abbrev S64x8x1024 : Shape := ⟨3, ![64, 8, 1024]⟩
abbrev S64x16x1024 : Shape := ⟨3, ![64, 16, 1024]⟩
abbrev S64x1x1024 : Shape := ⟨3, ![64, 1, 1024]⟩
abbrev S64x8 : Shape := ⟨2, ![64, 8]⟩
abbrev S64x16 : Shape := ⟨2, ![64, 16]⟩
abbrev S64x8x1 : Shape := ⟨3, ![64, 8, 1]⟩
abbrev S64x1x16 : Shape := ⟨3, ![64, 1, 16]⟩
abbrev S64x8x16 : Shape := ⟨3, ![64, 8, 16]⟩
abbrev S64 : Shape := ⟨1, ![64]⟩
abbrev S1x64 : Shape := ⟨2, ![1, 64]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S32768x1024, .f32⟩
  | .hbm, ⟨3, _⟩ => ⟨S2048x8x1024, .f32⟩
  | .hbm, ⟨4, _⟩ => ⟨S2048x16x1024, .f32⟩
  | .hbm, ⟨5, _⟩ => ⟨S1x1, .f32⟩
  | .hbm, ⟨6, _⟩ => ⟨S_, .f32⟩
  | .local _ .vmem, ⟨0, _⟩ => ⟨S64x1024, .f32⟩
  | .local _ .vmem, ⟨1, _⟩ => ⟨S64x1024, .f32⟩
  | .local _ .vmem, ⟨2, _⟩ => ⟨S64x8x1024, .f32⟩
  | .local _ .vmem, ⟨3, _⟩ => ⟨S64x8x1024, .f32⟩
  | .local _ .vmem, ⟨4, _⟩ => ⟨S64x16x1024, .f32⟩
  | .local _ .vmem, ⟨5, _⟩ => ⟨S64x16x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16384x1024_S2048x8x1024 : S16384x1024.ShapeCasts S2048x8x1024
  shapeCasts_S32768x1024_S2048x16x1024 : S32768x1024.ShapeCasts S2048x16x1024
  inb_S1x1_S1x1_0_0 : ∀ a, (![0, 0] : Fin 2 → Nat) a + S1x1.size a ≤ S1x1.size a
  h_S1x1 : 0 < S1x1.numel
  inb_S64x1024_S64x1024_0_0 : ∀ a, (![0, 0] : Fin 2 → Nat) a + S64x1024.size a ≤ S64x1024.size a
  h_S64x1024 : 0 < S64x1024.numel
  inb_S64x8x1024_S64x8x1024_0_0_0 : ∀ a, (![0, 0, 0] : Fin 3 → Nat) a + S64x8x1024.size a ≤ S64x8x1024.size a
  h_S64x8x1024 : 0 < S64x8x1024.numel
  shapeCasts_S64x8x1024_S64x8x1024 : S64x8x1024.ShapeCasts S64x8x1024
  inb_S64x16x1024_S64x16x1024_0_0_0 : ∀ a, (![0, 0, 0] : Fin 3 → Nat) a + S64x16x1024.size a ≤ S64x16x1024.size a
  h_S64x16x1024 : 0 < S64x16x1024.numel
  shapeCasts_S64x16x1024_S64x16x1024 : S64x16x1024.ShapeCasts S64x16x1024
  shapeCasts_S64x1024_S64x1x1024 : S64x1024.ShapeCasts S64x1x1024
  broadcasts_S64x1x1024_S64x8x1024 : S64x1x1024.Broadcasts S64x8x1024
  reduces_S64x8x1024_S64x8 : S64x8x1024.Reduces [2] S64x8
  broadcasts_S64x1x1024_S64x16x1024 : S64x1x1024.Broadcasts S64x16x1024
  reduces_S64x16x1024_S64x16 : S64x16x1024.Reduces [2] S64x16
  shapeCasts_S64x8_S64x8x1 : S64x8.ShapeCasts S64x8x1
  shapeCasts_S64x16_S64x1x16 : S64x16.ShapeCasts S64x1x16
  broadcasts_S64x8x1_S64x8x16 : S64x8x1.Broadcasts S64x8x16
  broadcasts_S64x1x16_S64x8x16 : S64x1x16.Broadcasts S64x8x16
  reduces_S64x8x16_S64x8 : S64x8x16.Reduces [2] S64x8
  reduces_S64x8_S64 : S64x8.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .f32 = 32 ∨ (Rect.block (s := S2048x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x1024.size a ≤ S2048x8x1024.size a
  hwx0_1 : ∀ i : grid0.Coords, EltTy.bits .f32 = 32 ∨ (Rect.block (s := S2048x8x1024) S64x8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16x1024.size a ≤ S2048x16x1024.size a
  hwx0_2 : ∀ i : grid0.Coords, EltTy.bits .f32 = 32 ∨ (Rect.block (s := S2048x16x1024) S64x16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S16384x1024 : Shape := ⟨2, ![16384, 1024]⟩
abbrev S32768x1024 : Shape := ⟨2, ![32768, 1024]⟩
abbrev S2048x8x1024 : Shape := ⟨3, ![2048, 8, 1024]⟩
abbrev S2048x16x1024 : Shape := ⟨3, ![2048, 16, 1024]⟩
abbrev S2048x1x1024 : Shape := ⟨3, ![2048, 1, 1024]⟩
abbrev S_ : Shape := ⟨0, ![]⟩
abbrev S2048x8 : Shape := ⟨2, ![2048, 8]⟩
abbrev S2048x16 : Shape := ⟨2, ![2048, 16]⟩
abbrev S2048x8x1 : Shape := ⟨3, ![2048, 8, 1]⟩
abbrev S2048x1x16 : Shape := ⟨3, ![2048, 1, 16]⟩
abbrev S2048x8x16 : Shape := ⟨3, ![2048, 8, 16]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16384x1024, .f32⟩
  | .hbm, ⟨2, _⟩ => ⟨S32768x1024, .f32⟩
  | .hbm, ⟨3, _⟩ => ⟨S2048x8x1024, .f32⟩
  | .hbm, ⟨4, _⟩ => ⟨S2048x16x1024, .f32⟩
  | .hbm, ⟨5, _⟩ => ⟨S2048x1x1024, .f32⟩
  | .hbm, ⟨6, _⟩ => ⟨S2048x8x1024, .f32⟩
  | .hbm, ⟨7, _⟩ => ⟨S2048x8x1024, .f32⟩
  | .hbm, ⟨8, _⟩ => ⟨S_, .f32⟩
  | .hbm, ⟨9, _⟩ => ⟨S2048x8x1024, .f32⟩
  | .hbm, ⟨10, _⟩ => ⟨S2048x8x1024, .f32⟩
  | .hbm, ⟨11, _⟩ => ⟨S2048x8x1024, .f32⟩
  | .hbm, ⟨12, _⟩ => ⟨S_, .f32⟩
  | .hbm, ⟨13, _⟩ => ⟨S2048x8, .f32⟩
  | .hbm, ⟨14, _⟩ => ⟨S2048x8, .f32⟩
  | .hbm, ⟨15, _⟩ => ⟨S2048x1x1024, .f32⟩
  | .hbm, ⟨16, _⟩ => ⟨S2048x16x1024, .f32⟩
  | .hbm, ⟨17, _⟩ => ⟨S2048x16x1024, .f32⟩
  | .hbm, ⟨18, _⟩ => ⟨S_, .f32⟩
  | .hbm, ⟨19, _⟩ => ⟨S2048x16x1024, .f32⟩
  | .hbm, ⟨20, _⟩ => ⟨S2048x16x1024, .f32⟩
  | .hbm, ⟨21, _⟩ => ⟨S2048x16x1024, .f32⟩
  | .hbm, ⟨22, _⟩ => ⟨S_, .f32⟩
  | .hbm, ⟨23, _⟩ => ⟨S2048x16, .f32⟩
  | .hbm, ⟨24, _⟩ => ⟨S2048x16, .f32⟩
  | .hbm, ⟨25, _⟩ => ⟨S2048x8x1, .f32⟩
  | .hbm, ⟨26, _⟩ => ⟨S2048x1x16, .f32⟩
  | .hbm, ⟨27, _⟩ => ⟨S2048x8x16, .f32⟩
  | .hbm, ⟨28, _⟩ => ⟨S2048x8x16, .f32⟩
  | .hbm, ⟨29, _⟩ => ⟨S2048x8x16, .f32⟩
  | .hbm, ⟨30, _⟩ => ⟨S_, .f32⟩
  | .hbm, ⟨31, _⟩ => ⟨S2048x8x16, .f32⟩
  | .hbm, ⟨32, _⟩ => ⟨S2048x8x16, .f32⟩
  | .hbm, ⟨33, _⟩ => ⟨S_, .f32⟩
  | .hbm, ⟨34, _⟩ => ⟨S2048x8x16, .f32⟩
  | .hbm, ⟨35, _⟩ => ⟨S2048x8x16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  shapeCasts_S16384x1024_S2048x8x1024 : S16384x1024.ShapeCasts S2048x8x1024
  shapeCasts_S32768x1024_S2048x16x1024 : S32768x1024.ShapeCasts S2048x16x1024
  bcast_S2048x1024_S2048x1x1024_0_2 : S2048x1024.BroadcastsInDim S2048x1x1024 (![0, 2] : Fin 2 → Fin S2048x1x1024.rank)
  bcast_S2048x1x1024_S2048x8x1024_0_1_2 : S2048x1x1024.BroadcastsInDim S2048x8x1024 (![0, 1, 2] : Fin 3 → Fin S2048x8x1024.rank)
  bcast_S_S2048x8x1024 : S_.BroadcastsInDim S2048x8x1024 (![] : Fin 0 → Fin S2048x8x1024.rank)
  reducesTo_S2048x8x1024_S2048x8_d2 : S2048x8x1024.ReducesTo [2] S2048x8
  h_S_ : 0 < S_.numel
  bcast_S2048x1x1024_S2048x16x1024_0_1_2 : S2048x1x1024.BroadcastsInDim S2048x16x1024 (![0, 1, 2] : Fin 3 → Fin S2048x16x1024.rank)
  bcast_S_S2048x16x1024 : S_.BroadcastsInDim S2048x16x1024 (![] : Fin 0 → Fin S2048x16x1024.rank)
  reducesTo_S2048x16x1024_S2048x16_d2 : S2048x16x1024.ReducesTo [2] S2048x16
  bcast_S2048x8_S2048x8x1_0_1 : S2048x8.BroadcastsInDim S2048x8x1 (![0, 1] : Fin 2 → Fin S2048x8x1.rank)
  bcast_S2048x16_S2048x1x16_0_2 : S2048x16.BroadcastsInDim S2048x1x16 (![0, 2] : Fin 2 → Fin S2048x1x16.rank)
  bcast_S2048x8x1_S2048x8x16_0_1_2 : S2048x8x1.BroadcastsInDim S2048x8x16 (![0, 1, 2] : Fin 3 → Fin S2048x8x16.rank)
  bcast_S2048x1x16_S2048x8x16_0_1_2 : S2048x1x16.BroadcastsInDim S2048x8x16 (![0, 1, 2] : Fin 3 → Fin S2048x8x16.rank)
  bcast_S_S2048x8x16 : S_.BroadcastsInDim S2048x8x16 (![] : Fin 0 → Fin S2048x8x16.rank)
  reducesTo_S2048x8x16_S_d0_1_2 : S2048x8x16.ReducesTo [0, 1, 2] S_

variable [Facts₀]

class Facts : Prop extends Facts₀ where

variable [Facts]
-- ==== Proof.Cases.lean ====
/-
  What one run of the kernel body leaves in the scalar output block, case by case, as a function of the three input
  tiles and of what the block held before: at the first grid point `0 + s`, at a middle point `acc + s`, at the last
  point `(acc + s) / count`, where `s` is the tile's scalar. Each case's stores are whole-block stores, so the last
  one decides the contents, and a load between two stores reads the earlier store's value.
-/
import proofs.«181646_j24498493456944_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The anchors' tile is loaded whole, the running scalar is loaded whole, and the body's one store leaves
    `running + tile scalar`: the case of every point that neither starts nor ends the grid. -/
theorem out_B (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : ¬cond0_0 i) (hc1 : ¬cond0_1 i)
    (x0 : Vec F S64x1024 .f32) (x1 : Vec F S64x8x1024 .f32) (x2 : Vec F S64x16x1024 .f32) (xo : Vec F S1x1 .f32) :
    out0_B_3 c i a1 h1 a2 h2 a3 h3 a4 h4 hc0 hc1 x0 x1 x2 xo = k0_pay1 (k0_pay4 x0 x1 x2) xo := by
  unfold out0_B_3
  rw [View.read_writes_eq_canon _ _ _ (cover0_B_3 c i a1 h1 a2 h2 a3 h3 a4 h4 hc0 hc1 x0 x1 x2 xo)]
  unfold kernelRun0_B
  dsimp only
  sl_unfold_words
  rw [View.canon_unit_zero (S := S1x1) hz2]
  simp only [View.readAt_eq_ld, h1.read_unread, h2.read_unread, h3.read_unread, h4.read_unread,
    View.ld_unit_zero (S := S1x1) hz2, View.ld_unit_zero (S := S64x1024) hz2, View.ld_unit_zero (S := S64x8x1024) hz3,
    View.ld_unit_zero (S := S64x16x1024) hz3]

/-- At the first point the body first stores the zero scalar, reads it back, and leaves `0 + tile scalar`. -/
theorem out_A (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : cond0_0 i) (hc1 : ¬cond0_1 i)
    (x0 : Vec F S64x1024 .f32) (x1 : Vec F S64x8x1024 .f32) (x2 : Vec F S64x16x1024 .f32) :
    out0_A_3 c i a1 h1 a2 h2 a3 h3 a4 h4 hc0 hc1 x0 x1 x2 = k0_pay1 (k0_pay4 x0 x1 x2) (k0_pay3 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz2]
  simp only [View.readAt_eq_ld, h1.read_unread, h2.read_unread, h3.read_unread, h4.read_unread,
    View.readCov_unit_zero (S := S1x1) _ hz2,
    View.ld_unit_zero (S := S1x1) hz2, View.ld_unit_zero (S := S64x1024) hz2, View.ld_unit_zero (S := S64x8x1024) hz3,
    View.ld_unit_zero (S := S64x16x1024) hz3]

/-- At the last point the body accumulates as everywhere, reads the sum back, and leaves it divided by the count. -/
theorem out_C (c : Dev nD) (i : grid0.Coords) (a1 : Memref sig .tc .vmem S64x1024 .f32) (h1 : a1.IsWhole)
    (a2 : Memref sig .tc .vmem S64x8x1024 .f32) (h2 : a2.IsWhole) (a3 : Memref sig .tc .vmem S64x16x1024 .f32) (h3 : a3.IsWhole)
    (a4 : Memref sig .tc .vmem S1x1 .f32) (h4 : a4.IsWhole) (hc0 : ¬cond0_0 i) (hc1 : cond0_1 i)
    (x0 : Vec F S64x1024 .f32) (x1 : Vec F S64x8x1024 .f32) (x2 : Vec F S64x16x1024 .f32) (xo : Vec F S1x1 .f32) :
    out0_C_3 c i a1 h1 a2 h2 a3 h3 a4 h4 hc0 hc1 x0 x1 x2 xo = k0_pay2 (k0_pay1 (k0_pay4 x0 x1 x2) xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) hz2]
  simp only [View.readAt_eq_ld, h1.read_unread, h2.read_unread, h3.read_unread, h4.read_unread,
    View.readCov_unit_zero (S := S1x1) _ hz2,
    View.ld_unit_zero (S := S1x1) hz2, View.ld_unit_zero (S := S64x1024) hz2, View.ld_unit_zero (S := S64x8x1024) hz3,
    View.ld_unit_zero (S := S64x16x1024) hz3]

end Cert.KernelIdeal.Acc

end
-- ==== Proof.Spec.lean ====
/-
  The mathematics both programs compute, over plain functions of indices and the extended reals.

  For an anchor row `b`, a candidate row `(b, q)` is at distance `dist = sqrt (∑ z, (A b z - X b q z + ε)²)`;
  a triple `(b, p, n)` costs the hinge `max (dist to positive p - dist to negative n + margin) 0`; the result is the sum of
  all hinges divided by their count. The definitions are generic in the number `B` of anchor rows, so the same
  formula serves the whole batch (`B = 2048`) and one tile of 64 consecutive anchors.

  Two re-arrangements join a tiled accumulation to the whole sum: the 32 tiles of 64 rows are exactly the 2048 rows
  (`sum_rows`), and a running sum started at `0` is the sum of its terms (`chain_eq`). Both hold in any commutative
  additive monoid, so on the extended reals no finiteness is needed.
-/
import Idealize.ShloMosaic.PureOps.Ideal
import Idealize.ShloMosaic.PureOps.Ideal.Laws
import Idealize.ShloMosaic.Lib.ValueIdx

noncomputable section

open scoped BigOperators

namespace Cert.Triplet

open Idealize.ShloMosaic Idealize.ShloMosaic.ValueIdx

/-- The offset added to every coordinate difference (the f32 nearest 1e-6, read as its exact binary value). -/
abbrev ε : EReal := Ideal.ofBits .f32 0x358637BD#32
/-- The margin, `1`. -/
abbrev margin : EReal := Ideal.ofBits .f32 0x3F800000#32
/-- The number of triples, `2048 · 8 · 16 = 262144`. -/
abbrev count : EReal := Ideal.ofBits .f32 0x48800000#32

/-- Distance of anchor row `b` to candidate row `(b, q)`. -/
def dist {B Q : Nat} (A : (⟨2, ![B, 1024]⟩ : Shape).Idx → EReal) (X : (⟨3, ![B, Q, 1024]⟩ : Shape).Idx → EReal)
    (b : Fin B) (q : Fin Q) : EReal :=
  Ideal.sqrt (∑ z : Fin 1024, (A (ix2 b z) - X (ix3 b q z) + ε) * (A (ix2 b z) - X (ix3 b q z) + ε))

/-- The hinge of the triple `(b, p, n)`. -/
def hinge {B : Nat} (A : (⟨2, ![B, 1024]⟩ : Shape).Idx → EReal) (P : (⟨3, ![B, 8, 1024]⟩ : Shape).Idx → EReal)
    (N : (⟨3, ![B, 16, 1024]⟩ : Shape).Idx → EReal) (b : Fin B) (p : Fin 8) (n : Fin 16) : EReal :=
  max (dist A P b p - dist A N b n + margin) 0

/-- The sum of the hinges of all triples of a batch of `B` anchors. -/
def batchSum {B : Nat} (A : (⟨2, ![B, 1024]⟩ : Shape).Idx → EReal) (P : (⟨3, ![B, 8, 1024]⟩ : Shape).Idx → EReal)
    (N : (⟨3, ![B, 16, 1024]⟩ : Shape).Idx → EReal) : EReal :=
  ∑ b : Fin B, ∑ p : Fin 8, ∑ n : Fin 16, hinge A P N b p n

/-- The mean hinge over the whole batch. -/
def mean (A : (⟨2, ![2048, 1024]⟩ : Shape).Idx → EReal) (P : (⟨3, ![2048, 8, 1024]⟩ : Shape).Idx → EReal)
    (N : (⟨3, ![2048, 16, 1024]⟩ : Shape).Idx → EReal) : EReal :=
  Ideal.div (batchSum A P N) count

/-! ## Tiles of 64 consecutive anchors -/

/-- Row `r` of tile `t` is anchor `64 t + r`. -/
def row (t : Fin 32) (r : Fin 64) : Fin 2048 := ⟨64 * t.val + r.val, by have := t.isLt; have := r.isLt; omega⟩

/-- Tile `t` of the anchors. -/
def tile2 (A : (⟨2, ![2048, 1024]⟩ : Shape).Idx → EReal) (t : Fin 32) : (⟨2, ![64, 1024]⟩ : Shape).Idx → EReal :=
  fun j => A (ix2 (row t (j 0)) (j 1))

/-- Tile `t` of a stack of candidates. -/
def tile3 {Q : Nat} (X : (⟨3, ![2048, Q, 1024]⟩ : Shape).Idx → EReal) (t : Fin 32) : (⟨3, ![64, Q, 1024]⟩ : Shape).Idx → EReal :=
  fun j => X (ix3 (row t (j 0)) (j 1) (j 2))

/-- A hinge inside a tile is the hinge of the anchor it stands for. -/
theorem hinge_tile (A : (⟨2, ![2048, 1024]⟩ : Shape).Idx → EReal) (P : (⟨3, ![2048, 8, 1024]⟩ : Shape).Idx → EReal)
    (N : (⟨3, ![2048, 16, 1024]⟩ : Shape).Idx → EReal) (t : Fin 32) (r : Fin 64) (p : Fin 8) (n : Fin 16) :
    hinge (tile2 A t) (tile3 P t) (tile3 N t) r p n = hinge A P N (row t r) p n := rfl

/-- The 32 tiles of 64 rows are the 2048 rows, each once. -/
theorem sum_rows {M : Type*} [AddCommMonoid M] (g : Fin 2048 → M) : ∑ t : Fin 32, ∑ r : Fin 64, g (row t r) = ∑ b : Fin 2048, g b := by
  rw [← Fintype.sum_prod_type' (f := fun t r => g (row t r))]
  refine Fintype.sum_equiv ((finProdFinEquiv (m := 32) (n := 64)).trans (finCongr (by norm_num))) _ _ fun x => ?_
  refine congrArg g (Fin.ext ?_)
  show 64 * x.1.val + x.2.val = x.2.val + 64 * x.1.val
  omega

/-- So the tile sums add up to the batch sum. -/
theorem sum_tiles (A : (⟨2, ![2048, 1024]⟩ : Shape).Idx → EReal) (P : (⟨3, ![2048, 8, 1024]⟩ : Shape).Idx → EReal)
    (N : (⟨3, ![2048, 16, 1024]⟩ : Shape).Idx → EReal) :
    ∑ t : Fin 32, batchSum (tile2 A t) (tile3 P t) (tile3 N t) = batchSum A P N := by
  unfold batchSum
  simp only [hinge_tile]
  exact sum_rows fun b => ∑ p : Fin 8, ∑ n : Fin 16, hinge A P N b p n

/-! ## A running sum -/

/-- The running sum `((0 + S 0) + S 1) + … + S n`. -/
def chain {M : Type*} [AddCommMonoid M] (S : ℕ → M) : ℕ → M
  | 0 => 0 + S 0
  | n + 1 => chain S n + S (n + 1)

theorem chain_eq {M : Type*} [AddCommMonoid M] (S : ℕ → M) (n : ℕ) : chain S n = ∑ t ∈ Finset.range (n + 1), S t := by
  induction n with
  | zero => simp [chain]
  | succ n ih => rw [chain, ih, Finset.sum_range_succ _ (n + 1)]

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Triplet

end
-- ==== Proof.TileValue.lean ====
/-
  One tile of 64 anchors, as the kernel body computes it at the extended reals: the body's scalar is the sum, over the
  tile's anchors, positives and negatives, of the hinges — the specification's batch sum of the tile. The layout steps
  (an added unit axis, a repeat along an axis) are read at an index first; the lane sums are sums over one coordinate;
  the root, the difference, the margin and the clamp at zero act entry by entry.
-/
import proofs.«181646_j24498493456944_1_alg».proof.Proof.Gen.KernelIdeal.Skeleton
import proofs.«181646_j24498493456944_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Triplet

/-! ## Layout steps read at an index -/

/-- A tile of anchors `[64, 1024]`, viewed as `[64, 1, 1024]` and repeated along the middle axis `Q` times, reads at
    `(r, q, z)` the anchor entry `(r, z)`. -/
theorem anchor8 {α : Type} (x0 : S64x1024.Idx → α) (r : Fin 64) (p : Fin 8) (z : Fin 1024) :
    broadcastTo S64x8x1024 (shapeCast S64x1x1024 x0 shapeCasts_S64x1024_S64x1x1024) broadcasts_S64x1x1024_S64x8x1024 (ix3 r p z) = x0 (ix2 r z) := by
  refine (broadcastTo_apply _ broadcasts_S64x1x1024_S64x8x1024 (ix3 r p z) (ix3 r (0 : Fin 1) z) (fun a => ?_)).trans
    (shapeCast_apply x0 shapeCasts_S64x1024_S64x1x1024 (ix3 r (0 : Fin 1) z) (ix2 r z) ?_)
  · match a with
    | ⟨0, _⟩ => show r.val = if (64 : Nat) = 1 then 0 else r.val; rw [if_neg (by decide)]
    | ⟨1, _⟩ => show 0 = if (1 : Nat) = 1 then 0 else p.val; rw [if_pos rfl]
    | ⟨2, _⟩ => show z.val = if (1024 : Nat) = 1 then 0 else z.val; rw [if_neg (by decide)]
  · rw [Shape.rowMajor_val_two, Shape.rowMajor_val_three]
    show r.val * 1024 + z.val = (r.val * 1 + 0) * 1024 + z.val
    omega

theorem anchor16 {α : Type} (x0 : S64x1024.Idx → α) (r : Fin 64) (n : Fin 16) (z : Fin 1024) :
    broadcastTo S64x16x1024 (shapeCast S64x1x1024 x0 shapeCasts_S64x1024_S64x1x1024) broadcasts_S64x1x1024_S64x16x1024 (ix3 r n z) = x0 (ix2 r z) := by
  refine (broadcastTo_apply _ broadcasts_S64x1x1024_S64x16x1024 (ix3 r n z) (ix3 r (0 : Fin 1) z) (fun a => ?_)).trans
    (shapeCast_apply x0 shapeCasts_S64x1024_S64x1x1024 (ix3 r (0 : Fin 1) z) (ix2 r z) ?_)
  · match a with
    | ⟨0, _⟩ => show r.val = if (64 : Nat) = 1 then 0 else r.val; rw [if_neg (by decide)]
    | ⟨1, _⟩ => show 0 = if (1 : Nat) = 1 then 0 else n.val; rw [if_pos rfl]
    | ⟨2, _⟩ => show z.val = if (1024 : Nat) = 1 then 0 else z.val; rw [if_neg (by decide)]
  · rw [Shape.rowMajor_val_two, Shape.rowMajor_val_three]
    show r.val * 1024 + z.val = (r.val * 1 + 0) * 1024 + z.val
    omega

/-- A `[64, 8]` table viewed as `[64, 8, 1]` and repeated along a new last axis reads at `(r, p, n)` its entry `(r, p)`. -/
theorem along_last {α : Type} (v : S64x8.Idx → α) (r : Fin 64) (p : Fin 8) (n : Fin 16) :
    broadcastTo S64x8x16 (shapeCast S64x8x1 v shapeCasts_S64x8_S64x8x1) broadcasts_S64x8x1_S64x8x16 (ix3 r p n) = v (ix2 r p) := by
  refine (broadcastTo_apply _ broadcasts_S64x8x1_S64x8x16 (ix3 r p n) (ix3 r p (0 : Fin 1)) (fun a => ?_)).trans
    (shapeCast_apply v shapeCasts_S64x8_S64x8x1 (ix3 r p (0 : Fin 1)) (ix2 r p) ?_)
  · match a with
    | ⟨0, _⟩ => show r.val = if (64 : Nat) = 1 then 0 else r.val; rw [if_neg (by decide)]
    | ⟨1, _⟩ => show p.val = if (8 : Nat) = 1 then 0 else p.val; rw [if_neg (by decide)]
    | ⟨2, _⟩ => show 0 = if (1 : Nat) = 1 then 0 else n.val; rw [if_pos rfl]
  · rw [Shape.rowMajor_val_two, Shape.rowMajor_val_three]
    show r.val * 8 + p.val = (r.val * 8 + p.val) * 1 + 0
    omega

/-- A `[64, 16]` table viewed as `[64, 1, 16]` and repeated along the middle axis reads at `(r, p, n)` its entry `(r, n)`. -/
theorem along_mid {α : Type} (v : S64x16.Idx → α) (r : Fin 64) (p : Fin 8) (n : Fin 16) :
    broadcastTo S64x8x16 (shapeCast S64x1x16 v shapeCasts_S64x16_S64x1x16) broadcasts_S64x1x16_S64x8x16 (ix3 r p n) = v (ix2 r n) := by
  refine (broadcastTo_apply _ broadcasts_S64x1x16_S64x8x16 (ix3 r p n) (ix3 r (0 : Fin 1) n) (fun a => ?_)).trans
    (shapeCast_apply v shapeCasts_S64x16_S64x1x16 (ix3 r (0 : Fin 1) n) (ix2 r n) ?_)
  · match a with
    | ⟨0, _⟩ => show r.val = if (64 : Nat) = 1 then 0 else r.val; rw [if_neg (by decide)]
    | ⟨1, _⟩ => show 0 = if (1 : Nat) = 1 then 0 else p.val; rw [if_pos rfl]
    | ⟨2, _⟩ => show n.val = if (16 : Nat) = 1 then 0 else n.val; rw [if_neg (by decide)]
  · rw [Shape.rowMajor_val_two, Shape.rowMajor_val_three]
    show r.val * 16 + n.val = (r.val * 1 + 0) * 16 + n.val
    omega

/-! ## The body's stages, named -/

/-- Anchor minus positive plus the offset, entry by entry. -/
def diffP (x0 : Vec Ideal S64x1024 .f32) (x1 : Vec Ideal S64x8x1024 .f32) : FVec Ideal S64x8x1024 .f32 :=
  addf (subf (broadcastTo S64x8x1024 (shapeCast S64x1x1024 x0 shapeCasts_S64x1024_S64x1x1024) broadcasts_S64x1x1024_S64x8x1024)
    (shapeCast S64x8x1024 x1 shapeCasts_S64x8x1024_S64x8x1024)) (broadcast S64x8x1024 (FloatOps.ofBits .f32 0x358637BD#32))

/-- Anchor minus negative plus the offset. -/
def diffN (x0 : Vec Ideal S64x1024 .f32) (x2 : Vec Ideal S64x16x1024 .f32) : FVec Ideal S64x16x1024 .f32 :=
  addf (subf (broadcastTo S64x16x1024 (shapeCast S64x1x1024 x0 shapeCasts_S64x1024_S64x1x1024) broadcasts_S64x1x1024_S64x16x1024)
    (shapeCast S64x16x1024 x2 shapeCasts_S64x16x1024_S64x16x1024)) (broadcast S64x16x1024 (FloatOps.ofBits .f32 0x358637BD#32))

/-- The distances to the positives, a `[64, 8]` table. -/
def dP (x0 : Vec Ideal S64x1024 .f32) (x1 : Vec Ideal S64x8x1024 .f32) : FVec Ideal S64x8 .f32 :=
  sqrt (multiReduction .add [2] S64x8 (mulf (diffP x0 x1) (diffP x0 x1)) 0x00000000#32 reduces_S64x8x1024_S64x8)

/-- The distances to the negatives, a `[64, 16]` table. -/
def dN (x0 : Vec Ideal S64x1024 .f32) (x2 : Vec Ideal S64x16x1024 .f32) : FVec Ideal S64x16 .f32 :=
  sqrt (multiReduction .add [2] S64x16 (mulf (diffN x0 x2) (diffN x0 x2)) 0x00000000#32 reduces_S64x16x1024_S64x16)

/-- The hinges of the tile, a `[64, 8, 16]` table. -/
def hingeV (x0 : Vec Ideal S64x1024 .f32) (x1 : Vec Ideal S64x8x1024 .f32) (x2 : Vec Ideal S64x16x1024 .f32) : FVec Ideal S64x8x16 .f32 :=
  maximumf (addf (subf (broadcastTo S64x8x16 (shapeCast S64x8x1 (dP x0 x1) shapeCasts_S64x8_S64x8x1) broadcasts_S64x8x1_S64x8x16)
      (broadcastTo S64x8x16 (shapeCast S64x1x16 (dN x0 x2) shapeCasts_S64x16_S64x1x16) broadcasts_S64x1x16_S64x8x16))
    (broadcast S64x8x16 (FloatOps.ofBits .f32 0x3F800000#32))) (broadcast S64x8x16 (FloatOps.ofBits .f32 0x00000000#32))

theorem diffP_apply (x0 : Vec Ideal S64x1024 .f32) (x1 : Vec Ideal S64x8x1024 .f32) (r : Fin 64) (p : Fin 8) (z : Fin 1024) :
    diffP x0 x1 (ix3 r p z) = x0 (ix2 r z) - x1 (ix3 r p z) + ε := by
  unfold diffP
  show broadcastTo S64x8x1024 (shapeCast S64x1x1024 x0 shapeCasts_S64x1024_S64x1x1024) broadcasts_S64x1x1024_S64x8x1024 (ix3 r p z)
    - shapeCast S64x8x1024 x1 shapeCasts_S64x8x1024_S64x8x1024 (ix3 r p z) + ε = _
  rw [anchor8, shapeCast_self]

theorem diffN_apply (x0 : Vec Ideal S64x1024 .f32) (x2 : Vec Ideal S64x16x1024 .f32) (r : Fin 64) (n : Fin 16) (z : Fin 1024) :
    diffN x0 x2 (ix3 r n z) = x0 (ix2 r z) - x2 (ix3 r n z) + ε := by
  unfold diffN
  show broadcastTo S64x16x1024 (shapeCast S64x1x1024 x0 shapeCasts_S64x1024_S64x1x1024) broadcasts_S64x1x1024_S64x16x1024 (ix3 r n z)
    - shapeCast S64x16x1024 x2 shapeCasts_S64x16x1024_S64x16x1024 (ix3 r n z) + ε = _
  rw [anchor16, shapeCast_self]

/-- The lane sum of the squared differences, then the root: the distance of the specification. -/
theorem dP_apply (x0 : Vec Ideal S64x1024 .f32) (x1 : Vec Ideal S64x8x1024 .f32) (r : Fin 64) (p : Fin 8) :
    dP x0 x1 (ix2 r p) = Cert.Triplet.dist x0 x1 r p := by
  unfold dP Cert.Triplet.dist
  show Ideal.sqrt ((multiReduction .add [2] S64x8 (mulf (diffP x0 x1) (diffP x0 x1)) 0x00000000#32 reduces_S64x8x1024_S64x8) (ix2 r p)) = _
  rw [Ideal.multiReduction_add_single]
  refine congrArg Ideal.sqrt (Finset.sum_congr rfl fun (z : Fin 1024) _ => ?_)
  have e : reduces_S64x8x1024_S64x8.lift (ix2 r p) z = ix3 r p z :=
    funext fun a => Fin.ext (by match a with | ⟨0, _⟩ => rfl | ⟨1, _⟩ => rfl | ⟨2, _⟩ => rfl)
  rw [e]
  show diffP x0 x1 (ix3 r p z) * diffP x0 x1 (ix3 r p z) = _
  rw [diffP_apply]

theorem dN_apply (x0 : Vec Ideal S64x1024 .f32) (x2 : Vec Ideal S64x16x1024 .f32) (r : Fin 64) (n : Fin 16) :
    dN x0 x2 (ix2 r n) = Cert.Triplet.dist x0 x2 r n := by
  unfold dN Cert.Triplet.dist
  show Ideal.sqrt ((multiReduction .add [2] S64x16 (mulf (diffN x0 x2) (diffN x0 x2)) 0x00000000#32 reduces_S64x16x1024_S64x16) (ix2 r n)) = _
  rw [Ideal.multiReduction_add_single]
  refine congrArg Ideal.sqrt (Finset.sum_congr rfl fun (z : Fin 1024) _ => ?_)
  have e : reduces_S64x16x1024_S64x16.lift (ix2 r n) z = ix3 r n z :=
    funext fun a => Fin.ext (by match a with | ⟨0, _⟩ => rfl | ⟨1, _⟩ => rfl | ⟨2, _⟩ => rfl)
  rw [e]
  show diffN x0 x2 (ix3 r n z) * diffN x0 x2 (ix3 r n z) = _
  rw [diffN_apply]

theorem hingeV_apply (x0 : Vec Ideal S64x1024 .f32) (x1 : Vec Ideal S64x8x1024 .f32) (x2 : Vec Ideal S64x16x1024 .f32)
    (r : Fin 64) (p : Fin 8) (n : Fin 16) : hingeV x0 x1 x2 (ix3 r p n) = hinge x0 x1 x2 r p n := by
  unfold hingeV hinge
  show max (broadcastTo S64x8x16 (shapeCast S64x8x1 (dP x0 x1) shapeCasts_S64x8_S64x8x1) broadcasts_S64x8x1_S64x8x16 (ix3 r p n)
      - broadcastTo S64x8x16 (shapeCast S64x1x16 (dN x0 x2) shapeCasts_S64x16_S64x1x16) broadcasts_S64x1x16_S64x8x16 (ix3 r p n) + margin)
    (Ideal.ofBits .f32 0x00000000#32) = _
  rw [along_last, along_mid, dP_apply, dN_apply, Ideal.ofBits_zero_f32]

/-! ## The tile's payload -/

/-- The body's scalar at a tile: the hinges summed over the negatives, then the positives, then the 64 anchors —
    the specification's batch sum of the tile. -/
theorem pay4_eq (x0 : Vec Ideal S64x1024 .f32) (x1 : Vec Ideal S64x8x1024 .f32) (x2 : Vec Ideal S64x16x1024 .f32) :
    k0_pay4 (F := Ideal) x0 x1 x2 = batchSum x0 x1 x2 := by
  show extractAt ![0, 0] (shapeCast S1x1 (multiReduction .add [1] S1 (shapeCast S1x64
      (multiReduction .add [1] S64 (multiReduction .add [2] S64x8 (hingeV x0 x1 x2) 0x00000000#32 reduces_S64x8x16_S64x8)
        0x00000000#32 reduces_S64x8_S64) shapeCasts_S64_S1x64) 0x00000000#32 reduces_S1x64_S1) shapeCasts_S1_S1x1)
      inpos_S1x1_p0_0 = _
  unfold extractAt batchSum
  rw [shapeCast_apply _ shapeCasts_S1_S1x1 _ (ix1 (0 : Fin 1)) (by rw [Shape.rowMajor_val_one, Shape.rowMajor_val_two]; rfl)]
  rw [Ideal.multiReduction_add_single]
  refine Finset.sum_congr rfl fun (r : Fin 64) _ => ?_
  have e1 : reduces_S1x64_S1.lift (ix1 (0 : Fin 1)) r = ix2 (0 : Fin 1) r :=
    funext fun a => Fin.ext (by match a with | ⟨0, _⟩ => rfl | ⟨1, _⟩ => rfl)
  rw [e1, shapeCast_a_1a_apply, Ideal.multiReduction_add_single]
  refine Finset.sum_congr rfl fun (p : Fin 8) _ => ?_
  have e2 : reduces_S64x8_S64.lift (ix1 r) p = ix2 r p :=
    funext fun a => Fin.ext (by match a with | ⟨0, _⟩ => rfl | ⟨1, _⟩ => rfl)
  rw [e2, Ideal.multiReduction_add_single]
  refine Finset.sum_congr rfl fun (n : Fin 16) _ => ?_
  have e3 : reduces_S64x8x16_S64x8.lift (ix2 r p) n = ix3 r p n :=
    funext fun a => Fin.ext (by match a with | ⟨0, _⟩ => rfl | ⟨1, _⟩ => rfl | ⟨2, _⟩ => rfl)
  rw [e3, hingeV_apply]

end Cert.KernelIdeal.Tile

end
-- ==== Proof.Acc.lean ====
/-
  The accumulation across the grid. The output block is never moved and is written back once, after the last of the 32
  points, so what the result array ends holding is the running sum of the 32 tile scalars, started at zero, divided by
  the count at the last point. Each tile scalar is the specification's batch sum of that tile (TileValue), a window's
  block at point `t` is rows `64 t … 64 t + 63` of its array, and the 32 tiles are the whole batch: the result is the
  mean hinge of the arrays the region was entered with.
-/
import proofs.«181646_j24498493456944_1_alg».proof.Proof.Cases
import proofs.«181646_j24498493456944_1_alg».proof.Proof.TileValue
import proofs.«181646_j24498493456944_1_alg».proof.Proof.Spec

noncomputable section

open scoped BigOperators

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Triplet

variable (m : (ℓ : Loc nD τ sig) → Buf (Elt Ideal) ℓ) (ρ : Dev nD → PrngReg)

/-! ## The scalar payloads on constant blocks -/

theorem pay1_const (s a : EReal) : k0_pay1 (F := Ideal) s (fun _ => a) = fun _ => a + s := by
  unfold k0_pay1
  funext i
  show shapeCast S1x1 (fun _ => a) shapeCasts_S1x1_S1x1 i + s = a + s
  rw [shapeCast_self]

theorem pay3_const : k0_pay3 (F := Ideal) = fun _ => (0 : EReal) := by
  unfold k0_pay3
  funext i
  exact Ideal.ofBits_zero_f32

theorem pay2_const (a : EReal) : k0_pay2 (F := Ideal) (fun _ => a) = fun _ => Ideal.div a count := by
  unfold k0_pay2
  funext i
  show Ideal.div (shapeCast S1x1 (fun _ => a) shapeCasts_S1x1_S1x1 i) count = Ideal.div a count
  rw [shapeCast_self]

/-! ## The tiles the windows stage -/

/-- The anchors', positives' and negatives' blocks at point `t`, at their literal types. -/
abbrev blkA (c : Dev nD) (t : Fin cfg0.N) : Vec Ideal S64x1024 .f32 := iblk m c 0 t
abbrev blkP (c : Dev nD) (t : Fin cfg0.N) : Vec Ideal S64x8x1024 .f32 := iblk m c 1 t
abbrev blkN (c : Dev nD) (t : Fin cfg0.N) : Vec Ideal S64x16x1024 .f32 := iblk m c 2 t

/-- The arrays as the region finds them, at their literal types. -/
abbrev arrA (c : Dev nD) : Vec Ideal S2048x1024 .f32 := V m c main_arg0
abbrev arrP (c : Dev nD) : Vec Ideal S2048x8x1024 .f32 := V m c main_v0
abbrev arrN (c : Dev nD) : Vec Ideal S2048x16x1024 .f32 := V m c main_v1

/-- The tile scalar of point `n` (zero past the grid, so that it is a sequence). -/
def tileScalar (c : Dev nD) (n : ℕ) : EReal :=
  if h : n < cfg0.N then k0_pay4 (F := Ideal) (blkA m c ⟨n, h⟩) (blkP m c ⟨n, h⟩) (blkN m c ⟨n, h⟩) else 0

theorem tileScalar_of_lt (c : Dev nD) (n : ℕ) (h : n < cfg0.N) :
    tileScalar m c n = k0_pay4 (F := Ideal) (blkA m c ⟨n, h⟩) (blkP m c ⟨n, h⟩) (blkN m c ⟨n, h⟩) := dif_pos h

/-! ## The running sum, point by point -/

/-- Before the last point the output block holds the running sum of the tile scalars. -/
theorem outsAt_eq (c : Dev nD) : ∀ (n : ℕ) (h : n < cfg0.N), n < 31 → outsAt0 m c n h = fun _ => chain (tileScalar m c) n
  | 0, h, _ => by
    rw [outsAt0_A m c ⟨0, h⟩ rfl (by show ¬0 % 32 = 31; decide), out_A, pay3_const, pay1_const]
    funext _
    show (0 : EReal) + _ = 0 + tileScalar m c 0
    rw [tileScalar_of_lt m c 0 h]
  | n + 1, h, h31 => by
    have hB0 : ¬(⟨n + 1, h⟩ : Fin cfg0.N).val % 32 = 0 := by dsimp only; omega
    have hB1 : ¬(⟨n + 1, h⟩ : Fin cfg0.N).val % 32 = 31 := by dsimp only; omega
    rw [outsAt0_B m c ⟨n + 1, h⟩ hB0 hB1, out_B]
    show k0_pay1 _ (outsAt0 m c n _) = _
    rw [outsAt_eq c n (Nat.lt_of_succ_lt h) (by omega), pay1_const]
    funext _
    show chain (tileScalar m c) n + _ = chain (tileScalar m c) n + tileScalar m c (n + 1)
    rw [tileScalar_of_lt m c (n + 1) h]

/-- After the last point it holds the whole sum divided by the count. -/
theorem outsAt_last (c : Dev nD) (h : 31 < cfg0.N) :
    outsAt0 m c 31 h = fun _ => Ideal.div (chain (tileScalar m c) 31) count := by
  have hC0 : ¬(⟨31, h⟩ : Fin cfg0.N).val % 32 = 0 := by show ¬31 % 32 = 0; decide
  rw [outsAt0_C m c ⟨31, h⟩ hC0 rfl, out_C]
  show k0_pay2 (k0_pay1 _ (outsAt0 m c 30 _)) = _
  rw [outsAt_eq m c 30 (Nat.lt_of_succ_lt h) (by decide), pay1_const, pay2_const]
  funext _
  show Ideal.div (chain (tileScalar m c) 30 + _) count = Ideal.div (chain (tileScalar m c) 30 + tileScalar m c 31) count
  rw [tileScalar_of_lt m c 31 h]

/-! ## A window's block is a tile of its array -/

theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0)

/-- Grid point `t` as a tile number. -/
abbrev tileOf (t : Fin cfg0.N) : Fin 32 := ⟨t.val, lt_of_lt_of_eq t.isLt (show cfg0.N = 32 from N_0)⟩

theorem blkA_eq (c : Dev nD) (t : Fin cfg0.N) : blkA m c t = tile2 (arrA m c) (tileOf t) := by
  funext j
  show iblk m c 0 t j = _
  unfold iblk tile2
  rw [View.read_apply]
  show V m c main_arg0 _ = V m c main_arg0 _
  refine congrArg (V m c main_arg0) (funext fun a => Fin.ext ?_)
  match a with
  | ⟨0, _⟩ => show win0_0.index t 0 * 64 + 1 * (j 0).val = 64 * t.val + (j 0).val; rw [(idx_facts t).1]; omega
  | ⟨1, _⟩ => show win0_0.index t 1 * 1024 + 1 * (j 1).val = (j 1).val; rw [(idx_facts t).2.1]; omega

theorem blkP_eq (c : Dev nD) (t : Fin cfg0.N) : blkP m c t = tile3 (arrP m c) (tileOf t) := by
  funext j
  show iblk m c 1 t j = _
  unfold iblk tile3
  rw [View.read_apply]
  show V m c main_v0 _ = V m c main_v0 _
  refine congrArg (V m c main_v0) (funext fun a => Fin.ext ?_)
  match a with
  | ⟨0, _⟩ => show win0_1.index t 0 * 64 + 1 * (j 0).val = 64 * t.val + (j 0).val; rw [(idx_facts t).2.2.1]; omega
  | ⟨1, _⟩ => show win0_1.index t 1 * 8 + 1 * (j 1).val = (j 1).val; rw [(idx_facts t).2.2.2.1]; omega
  | ⟨2, _⟩ => show win0_1.index t 2 * 1024 + 1 * (j 2).val = (j 2).val; rw [(idx_facts t).2.2.2.2.1]; omega

theorem blkN_eq (c : Dev nD) (t : Fin cfg0.N) : blkN m c t = tile3 (arrN m c) (tileOf t) := by
  funext j
  show iblk m c 2 t j = _
  unfold iblk tile3
  rw [View.read_apply]
  show V m c main_v1 _ = V m c main_v1 _
  refine congrArg (V m c main_v1) (funext fun a => Fin.ext ?_)
  match a with
  | ⟨0, _⟩ => show win0_2.index t 0 * 64 + 1 * (j 0).val = 64 * t.val + (j 0).val; rw [(idx_facts t).2.2.2.2.2.1]; omega
  | ⟨1, _⟩ => show win0_2.index t 1 * 16 + 1 * (j 1).val = (j 1).val; rw [(idx_facts t).2.2.2.2.2.2.1]; omega
  | ⟨2, _⟩ => show win0_2.index t 2 * 1024 + 1 * (j 2).val = (j 2).val; rw [(idx_facts t).2.2.2.2.2.2.2]; omega

/-! ## The whole sum -/

/-- The 32 tile scalars add up to the batch sum of the arrays. -/
theorem chain_total (c : Dev nD) : chain (tileScalar m c) 31 = batchSum (arrA m c) (arrP m c) (arrN m c) := by
  have hN : cfg0.N = 32 := N_0
  rw [chain_eq, Finset.sum_range (fun n => tileScalar m c n), ← sum_tiles]
  refine Finset.sum_congr rfl fun (t : Fin 32) _ => ?_
  have ht : t.val < cfg0.N := by rw [hN]; exact t.isLt
  rw [tileScalar_of_lt m c t.val ht, Cert.KernelIdeal.Tile.pay4_eq, blkA_eq, blkP_eq, blkN_eq]

/-- What the output block holds after the last point: the mean hinge. -/
theorem outsAt_mean (c : Dev nD) (h : 31 < cfg0.N) :
    outsAt0 m c 31 h = fun _ => mean (arrA m c) (arrP m c) (arrN m c) := by
  rw [outsAt_last, chain_total]
  rfl

end Cert.KernelIdeal.Acc

end
-- ==== Proof.Final.lean ====
/-
  The idealized kernel's whole run, read as a value. The scalar output block is written back once, after the last grid
  point, and its one entry is the whole result array; the host line after the region only drops the two unit axes. The
  arrays the region is entered with are the anchors and the two row-major re-shapings the host lines before it make of
  the positives and the negatives. So the program ends with its result at the mean hinge of its arguments, and the
  arguments unchanged.
-/
import proofs.«181646_j24498493456944_1_alg».proof.Proof.Acc
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc Cert.Triplet

variable (m : (ℓ : Loc nD τ sig) → Buf (Elt Ideal) ℓ) (ρ : Dev nD → PrngReg)

/-! ## The arrays the region finds -/

theorem arrA_eq (c : Dev nD) : arrA m c = m ((c : Thread nD τ).loc main_arg0) := V_main_arg0 m c

theorem arrP_eq (c : Dev nD) :
    arrP m c = shapeCast S2048x8x1024 (m ((c : Thread nD τ).loc main_arg1)) shapeCasts_S16384x1024_S2048x8x1024 := by
  show StableHlo.after hostOps0 (fun b => m (c, b)) (Proc.devRef .tc main_v0) = _
  after_results
  rfl

theorem arrN_eq (c : Dev nD) :
    arrN m c = shapeCast S2048x16x1024 (m ((c : Thread nD τ).loc main_arg2)) shapeCasts_S32768x1024_S2048x16x1024 := by
  show StableHlo.after hostOps0 (fun b => m (c, b)) (Proc.devRef .tc main_v1) = _
  after_results
  rfl

/-- The mean hinge of the program's arguments on core `c`. -/
def result (c : Dev nD) : EReal :=
  mean (m ((c : Thread nD τ).loc main_arg0))
    (shapeCast S2048x8x1024 (m ((c : Thread nD τ).loc main_arg1)) shapeCasts_S16384x1024_S2048x8x1024)
    (shapeCast S2048x16x1024 (m ((c : Thread nD τ).loc main_arg2)) shapeCasts_S32768x1024_S2048x16x1024)

theorem mean_eq (c : Dev nD) : mean (arrA m c) (arrP m c) (arrN m c) = result m c := by
  rw [arrA_eq, arrP_eq, arrN_eq]
  rfl

/-! ## The result array after the region -/

/-- The last grid point. -/
abbrev tLast : Fin cfg0.N := ⟨31, by rw [show cfg0.N = 32 from N_0]; decide⟩

/-- The one write-back writes the mean: the block's one entry. -/
theorem flushed_eq (c : Dev nD) (t : Fin cfg0.N) (hf : (cfg0.win 3).flush t = true) :
    (dats m 0 c).flushed 3 t
      = ((cfg0.win 3).blk t).view.read (Elt Ideal) (fun _ => result m c : Buf (Elt Ideal) ((c : Thread nD τ).loc main_v2)) := by
  have hN : cfg0.N = 32 := N_0
  have h31 : t.val = 31 := by have := (flush0_3 t).mp hf; have := t.isLt; omega
  obtain rfl : t = tLast := Fin.ext h31
  show (cfg0.win 3).cut (grid0.coords tLast) ((dats m 0 c).after 3 tLast) = _
  rw [after0_3, outsAt_mean, mean_eq]
  rfl

/-- So the result array ends holding the mean. -/
theorem final (c : Dev nD) :
    (dats m 0 c).arrAt 3 cfg0.N = (fun _ => result m c : Buf (Elt Ideal) ((c : Thread nD τ).loc main_v2)) :=
  (dats m 0 c).arrAt_eq_of_cover 3 _ (flushed_eq m c) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-! ## The host line after the region -/

/-- Dropping the unit axes of the one-entry array leaves the mean as a scalar. -/
theorem tail_eq (c : Dev nD) :
    Pipeline.afterTail₀ cfgs (dats m) 0 (V0 m) [hostOps1] c main_v3
      = (fun _ => result m c : Buf (Elt Ideal) ((c : Thread nD τ).loc main_v3)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2) = _ from
    (Pipeline.withArrays_arr spec0 launch0.win.arr_inj c _ _ 3).trans (final m c)]
  rfl

/-! ## The run -/

/-- Every weakly fair execution of the idealized kernel program terminates with its result at the mean hinge of the
    arguments and the arguments unchanged. -/
theorem run : θ_run defs (onTc (τ := τ) (main (F := Ideal))) ⟨m, fun _ => 0, ρ⟩ fun r => ∀ c : Dev nD,
      r.2.mem ((c.tc : Thread nD τ).loc main_v3) = (fun _ => result m c : Buf (Elt Ideal) ((c : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference program's result, read one operation at a time, is the mean hinge of the specification:
  the host's two lane sums and roots are the two distances, its broadcasts pair every positive with every negative,
  its total sum runs over all triples `(b, p, n)`, and its quotient by the count is the mean.
-/
import proofs.«181646_j24498493456944_1_alg».proof.Proof.Gen.ReferenceIdeal.Read
import proofs.«181646_j24498493456944_1_alg».proof.Proof.Spec

noncomputable section

open scoped BigOperators

namespace Cert.ReferenceIdeal.RefValue

open Idealize.ShloMosaic Idealize.ShloMosaic.ValueIdx Cert.ReferenceIdeal Cert.ReferenceIdeal.Read Cert.Triplet

variable (x0 : (⟨S2048x1024, .f32⟩ : BufTy).Contents (Elt Ideal)) (x1 : (⟨S16384x1024, .f32⟩ : BufTy).Contents (Elt Ideal))
  (x2 : (⟨S32768x1024, .f32⟩ : BufTy).Contents (Elt Ideal))

/-- The anchor broadcast against the positives reads `(b, p, z)` at the anchor entry `(b, z)`. -/
theorem anchorP (b : Fin 2048) (p : Fin 8) (z : Fin 1024) : val_main_v3 (F := Ideal) x0 (ix3 b p z) = x0 (ix2 b z) := by
  rw [val_main_v3_apply, val_main_v2_apply]
  exact congrArg x0 (funext fun a => Fin.ext (by match a with | ⟨0, _⟩ => rfl | ⟨1, _⟩ => rfl))

/-- The anchor broadcast against the negatives reads `(b, n, z)` at the anchor entry `(b, z)`. -/
theorem anchorN (b : Fin 2048) (n : Fin 16) (z : Fin 1024) : val_main_v11 (F := Ideal) x0 (ix3 b n z) = x0 (ix2 b z) := by
  rw [val_main_v11_apply, val_main_v10_apply]
  exact congrArg x0 (funext fun a => Fin.ext (by match a with | ⟨0, _⟩ => rfl | ⟨1, _⟩ => rfl))

/-- The host's distance to positive `p` of anchor `b`. -/
theorem distP (b : Fin 2048) (p : Fin 8) :
    val_main_v9 (F := Ideal) x0 x1 (ix2 b p) = Cert.Triplet.dist x0 (val_main_v0 (F := Ideal) x1) b p := by
  rw [val_main_v9_apply, val_main_v8_apply]
  unfold Cert.Triplet.dist
  show Ideal.sqrt (Ideal.ofBits .f32 0x00000000#32 + _) = _
  rw [Ideal.ofBits_zero_f32, zero_add]
  refine congrArg Ideal.sqrt (Finset.sum_congr rfl fun (z : Fin 1024) _ => ?_)
  have e : idx_main_v8 (ix2 b p) z = ix3 b p z :=
    funext fun a => Fin.ext (by match a with | ⟨0, _⟩ => rfl | ⟨1, _⟩ => rfl | ⟨2, _⟩ => rfl)
  rw [e, val_main_v7_apply, val_main_v6_apply, val_main_v4_apply, val_main_v5_apply, anchorP]
  rfl

/-- The host's distance to negative `n` of anchor `b`. -/
theorem distN (b : Fin 2048) (n : Fin 16) :
    val_main_v17 (F := Ideal) x0 x2 (ix2 b n) = Cert.Triplet.dist x0 (val_main_v1 (F := Ideal) x2) b n := by
  rw [val_main_v17_apply, val_main_v16_apply]
  unfold Cert.Triplet.dist
  show Ideal.sqrt (Ideal.ofBits .f32 0x00000000#32 + _) = _
  rw [Ideal.ofBits_zero_f32, zero_add]
  refine congrArg Ideal.sqrt (Finset.sum_congr rfl fun (z : Fin 1024) _ => ?_)
  have e : idx_main_v16 (ix2 b n) z = ix3 b n z :=
    funext fun a => Fin.ext (by match a with | ⟨0, _⟩ => rfl | ⟨1, _⟩ => rfl | ⟨2, _⟩ => rfl)
  rw [e, val_main_v15_apply, val_main_v14_apply, val_main_v12_apply, val_main_v13_apply, anchorN]
  rfl

/-- The host's hinge of the triple `(b, p, n)`. -/
theorem hinge_eq (b : Fin 2048) (p : Fin 8) (n : Fin 16) :
    val_main_v26 (F := Ideal) x0 x1 x2 (ix3 b p n)
      = hinge x0 (val_main_v0 (F := Ideal) x1) (val_main_v1 (F := Ideal) x2) b p n := by
  rw [val_main_v26_apply, val_main_v24_apply, val_main_v22_apply, val_main_v25_apply, val_main_v23_apply,
    val_main_v20_apply, val_main_v18_apply, val_main_v21_apply, val_main_v19_apply]
  have e1 : idx_main_v18 (idx_main_v20 (ix3 b p n)) = ix2 b p :=
    funext fun a => Fin.ext (by match a with | ⟨0, _⟩ => rfl | ⟨1, _⟩ => rfl)
  have e2 : idx_main_v19 (idx_main_v21 (ix3 b p n)) = ix2 b n :=
    funext fun a => Fin.ext (by match a with | ⟨0, _⟩ => rfl | ⟨1, _⟩ => rfl)
  rw [e1, e2, distP, distN]
  unfold hinge
  show max (_ - _ + margin) (Ideal.ofBits .f32 0x00000000#32) = _
  rw [Ideal.ofBits_zero_f32]

/-- The reference's result is the mean hinge. -/
theorem result_eq :
    val_main_v28 (F := Ideal) x0 x1 x2 = fun _ => mean x0 (val_main_v0 (F := Ideal) x1) (val_main_v1 (F := Ideal) x2) := by
  funext i
  rw [val_main_v28_apply, val_main_v27_apply]
  unfold mean batchSum
  show Ideal.div (Ideal.ofBits .f32 0x00000000#32 + _) count = _
  rw [Ideal.ofBits_zero_f32, zero_add, sum_idx3]
  refine congrArg (Ideal.div · count) (Finset.sum_congr rfl fun (b : Fin 2048) _ => Finset.sum_congr rfl fun (p : Fin 8) _ =>
    Finset.sum_congr rfl fun (n : Fin 16) _ => ?_)
  exact hinge_eq x0 x1 x2 b p n

end Cert.ReferenceIdeal.RefValue

end
-- ==== Proof.lean ====
/-
  The triplet-margin mean: for 2048 anchors, each with 8 positives and 16 negatives of 1024 coordinates, the mean over
  all triples `(b, p, n)` of `max (‖a_b - pos_{b,p} + ε‖ - ‖a_b - neg_{b,n} + ε‖ + 1) 0`.

  The kernel streams the batch in 32 tiles of 64 anchors, adds each tile's sum of hinges into a scalar block that stays
  in place across the grid (zeroed at the first point), and divides by the number of triples at the last point; the
  reference computes the two distance tables for the whole batch, forms every hinge, and takes their mean. Over the
  extended reals both are the same number: every operation is the exact one on both sides with the same constants, the
  lane sums are plain sums, and the only difference is the grouping of one big sum into 32 · 64 · 8 · 16 terms summed
  tile by tile, which commutativity and associativity of addition settle (no finiteness is used).

  The three frames are the generated ones (the kernel's two) and the reference's generated run with its result dropped;
  the idealization rewrote nothing, so `preserves` is trivial.
-/
import proofs.«181646_j24498493456944_1_alg».proof.Defs
import proofs.«181646_j24498493456944_1_alg».proof.Proof.Gen.Kernel
import proofs.«181646_j24498493456944_1_alg».proof.Proof.Gen.Kernel.Skeleton
import proofs.«181646_j24498493456944_1_alg».proof.Proof.Gen.Kernel.Launch
import proofs.«181646_j24498493456944_1_alg».proof.Proof.Gen.Kernel.Points
import proofs.«181646_j24498493456944_1_alg».proof.Proof.Gen.Kernel.Frame
import proofs.«181646_j24498493456944_1_alg».proof.Proof.Gen.KernelIdeal
import proofs.«181646_j24498493456944_1_alg».proof.Proof.Gen.KernelIdeal.Skeleton
import proofs.«181646_j24498493456944_1_alg».proof.Proof.Gen.KernelIdeal.Launch
import proofs.«181646_j24498493456944_1_alg».proof.Proof.Gen.KernelIdeal.Points
import proofs.«181646_j24498493456944_1_alg».proof.Proof.Gen.KernelIdeal.Frame
import proofs.«181646_j24498493456944_1_alg».proof.Proof.Gen.ReferenceIdeal
import proofs.«181646_j24498493456944_1_alg».proof.Proof.Gen.ReferenceIdeal.Run
import proofs.«181646_j24498493456944_1_alg».proof.Proof.Gen.ReferenceIdeal.Read
import proofs.«181646_j24498493456944_1_alg».proof.Proof.Gen.Pre_finite_inputs
import proofs.«181646_j24498493456944_1_alg».proof.Proof.Final
import proofs.«181646_j24498493456944_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the mean hinge of their arguments: the kernel by its accumulation over the tiles, the
    reference by its operations read one at a time; the arguments agree. -/
theorem algebraic : Cert.algebraic_KernelIdeal_ReferenceIdeal := by
  intro m ρ m' ρ' _ hagree
  refine ⟨fun c => (fun _ => Cert.KernelIdeal.Final.result m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2.1,
    (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
